-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S16384 : Shape := ⟨1, ![16384]⟩
abbrev S512x2048 : Shape := ⟨2, ![512, 2048]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512, .f32⟩
  | .local _ .vmem, ⟨4, _⟩ => ⟨S512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S512x2048_S512 : S512x2048.Reduces [1] S512
  inb_S512_S512_0 : ∀ a, (![0] : Fin 1 → Nat) a + S512.size a ≤ S512.size a
  h_S512 : 0 < S512.numel
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S_ : Shape := ⟨0, ![]⟩
abbrev S16384 : Shape := ⟨1, ![16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Density.lean ====
/-
  The quantity both programs compute, written once as a function of the two argument arrays.

  For a batch row `b` of `x : [16384, 2048]` and the matrix `ρ : [2048, 2048]`,

      out[b] = ‖x_b‖² · (x_bᵀ ρ x_b) = (∑ j, x[b,j] · x[b,j]) · (∑ j, (∑ k, x[b,k] · ρ[k,j]) · x[b,j]),

  every sum and product taken on the extended reals in exactly this grouping. The value depends on the row
  `x_b` alone (and on `ρ`), so it is stated for a row `r : Fin 2048 → EReal`: a row of a 512-row block and the
  corresponding row of the whole array are then literally the same argument. No law of the extended reals beyond
  `0 + a = a` is needed anywhere below: the two programs group their sums and products identically.
-/
import Idealize.ShloMosaic.Lib.ValueIdx

noncomputable section

open scoped BigOperators

namespace Cert.Density

open Idealize.ShloMosaic Idealize.ShloMosaic.ValueIdx

/-- The squared norm of a row: `∑ j, r j · r j`. -/
def normSq (r : Fin 2048 → EReal) : EReal := ∑ j : Fin 2048, r j * r j

/-- The row-vector times matrix product at column `j`: `(rᵀ ρ)[j] = ∑ k, r k · ρ[k,j]`. -/
def rowTimes (r : Fin 2048 → EReal) (rho : (⟨2, ![2048, 2048]⟩ : Shape).Idx → EReal) (j : Fin 2048) : EReal :=
  ∑ k : Fin 2048, r k * rho (ix2 k j)

/-- The quadratic form `rᵀ ρ r = ∑ j, (rᵀ ρ)[j] · r j`. -/
def quadForm (r : Fin 2048 → EReal) (rho : (⟨2, ![2048, 2048]⟩ : Shape).Idx → EReal) : EReal :=
  ∑ j : Fin 2048, rowTimes r rho j * r j

/-- One row's result: `‖r‖² · (rᵀ ρ r)`. -/
def rowDensity (r : Fin 2048 → EReal) (rho : (⟨2, ![2048, 2048]⟩ : Shape).Idx → EReal) : EReal :=
  normSq r * quadForm r rho

/-- Row `b` of an array with 2048 columns, as a function of the column. -/
def rowOf {n : Nat} (x : (⟨2, ![n, 2048]⟩ : Shape).Idx → EReal) (b : Fin n) : Fin 2048 → EReal := fun j => x (ix2 b j)

/-- The whole result array: entry `b` is the density of row `b` of `x`. -/
def density (x : (⟨2, ![16384, 2048]⟩ : Shape).Idx → EReal) (rho : (⟨2, ![2048, 2048]⟩ : Shape).Idx → EReal) :
    (⟨1, ![16384]⟩ : Shape).Idx → EReal :=
  fun i => rowDensity (rowOf x (i 0)) rho

theorem density_ix1 (x : (⟨2, ![16384, 2048]⟩ : Shape).Idx → EReal) (rho : (⟨2, ![2048, 2048]⟩ : Shape).Idx → EReal)
    (b : Fin 16384) : density x rho (ix1 b) = rowDensity (rowOf x b) rho := rfl

end Cert.Density

end
-- ==== Proof.KernelRow.lean ====
/-
  One row of the kernel body's result.

  The body receives a 512-row block `x0 : [512, 2048]` of the input and the whole matrix `x1 : [2048, 2048]` (its
  16-bit copy, which on the extended reals is the matrix itself), and stores, for each row `p` of the block,

      (∑ j, x0[p,j] · x0[p,j]) · (∑ j, (∑ k, x0[p,k] · x1[k,j]) · x0[p,j]).

  The inner sum is the matrix product into a zero accumulator read at `(p, j)`: the contraction runs over one axis of
  extent 2048, the left operand is read at `(p, k)` and the right at `(k, j)`. The narrowing of the left operand to 16
  bits and the same-shape cast of the right are the identity on the extended reals. Each outer sum is a sum over the
  lane axis of the block. Together this is the density of row `p` of the block, `Cert.Density.rowDensity`.
-/
import proofs.«164207_j30897994728226_1_alg».proof.Proof.Gen.KernelIdeal.Skeleton
import proofs.«164207_j30897994728226_1_alg».proof.Proof.Density
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Density

/-! ## The operand indices of the block's matrix product -/

/-- The left operand's row is the output's row. -/
theorem lhs_dot_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- The left operand's column is the contraction coordinate. -/
theorem lhs_dot_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- The right operand's row is the contraction coordinate. -/
theorem rhs_dot_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- The right operand's column is the output's column. -/
theorem rhs_dot_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-! ## The matrix product at an entry, and a lane sum at a row -/

/-- The block's product with the matrix, into a zero accumulator, at `(p, j)`: `∑ k, x0[p,k] · x1[k,j]`. -/
theorem matmul_entry (x0 : FVec Ideal S512x2048 .f32) (x1 : FVec Ideal S2048x2048 .bf16)
    (hb : FTy.bits .bf16 < FTy.bits .f32) (hc : S2048x2048.ShapeCasts S2048x2048) (p : Fin 512) (j : Fin 2048) :
    matmul (F := Ideal) dot_S512x2048_S2048x2048_S512x2048_1_0_0_1_n_n none (truncf .bf16 x0 hb) (shapeCast S2048x2048 x1 hc)
        (constant (F := Ideal) S512x2048 .f32 0x00000000#32) (ix2 p j)
      = rowTimes (rowOf x0 p) x1 j := by
  rw [shapeCast_self]
  simp only [matmul]
  rw [Ideal.matmul_constant_zero_apply, ← Equiv.sum_comp (contrEquiv1 dot_S512x2048_S2048x2048_S512x2048_1_0_0_1_n_n 2048 rfl rfl).symm]
  unfold rowTimes rowOf
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p j) ((contrEquiv1 dot_S512x2048_S2048x2048_S512x2048_1_0_0_1_n_n 2048 rfl rfl).symm k) = ix2 p k := funext fun a => Fin.ext (by
    match a with
    | ⟨0, _⟩ => exact lhs_dot_0 _ _
    | ⟨1, _⟩ => exact (lhs_dot_1 _ _).trans hk)
  have er : dot_S512x2048_S2048x2048_S512x2048_1_0_0_1_n_n.rhsIdx (ix2 p j) ((contrEquiv1 dot_S512x2048_S2048x2048_S512x2048_1_0_0_1_n_n 2048 rfl rfl).symm k) = ix2 k j := funext fun a => Fin.ext (by
    match a with
    | ⟨0, _⟩ => exact (rhs_dot_0 _ _).trans hk
    | ⟨1, _⟩ => exact rhs_dot_1 _ _)
  rw [el, er]
  rfl

/-- The sum over the lane axis of a `[512, 2048]` block, at row `p`: `∑ j, v[p,j]`. -/
theorem laneSum_row (v : FVec Ideal S512x2048 .f32) (h : S512x2048.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ j : Fin 2048, v (ix2 p j) := by
  refine (Ideal.multiReduction_add_single v 0x00000000#32 h hφ hacc (ix1 p)).trans ?_
  refine Finset.sum_congr rfl fun k _ => congrArg v ?_
  funext a; apply Fin.ext
  match a with
  | ⟨0, _⟩ => rfl
  | ⟨1, _⟩ => rfl

/-! ## The body's stored value at a row -/

/-- Row `p` of what the body stores is the density of row `p` of its input block. -/
theorem pay_row (x0 : FVec Ideal S512x2048 .f32) (x1 : FVec Ideal S2048x2048 .bf16) (p : Fin 512) :
    k0_pay1 (F := Ideal) x0 x1 (ix1 p) = rowDensity (rowOf x0 p) x1 := by
  unfold k0_pay1 rowDensity
  refine congrArg₂ (· * ·) ?_ ?_
  · exact laneSum_row _ _ _ _ p
  · refine (laneSum_row _ _ _ _ p).trans ?_
    unfold quadForm
    refine Finset.sum_congr rfl fun j _ => ?_
    exact congrArg (· * x0 (ix2 p j)) (matmul_entry x0 x1 _ _ p j)

end Cert.KernelIdeal.Row

end
-- ==== Proof.KernelArray.lean ====
/-
  From the blocks to the array: after the kernel's run the result array holds the density.

  The grid has 32 points. At point `t` the input window holds rows `512·t … 512·t + 511` of `x` (all 2048 columns),
  the matrix window holds the whole matrix as the host prefix left it — the argument `ρ` narrowed to 16 bits, which
  on the extended reals is `ρ` itself —, and the output window is entries `512·t … 512·t + 511` of the result. So row
  `p` of the body's stored value is the density of row `512·t + p` of `x` (`Cert.KernelIdeal.Row.pay_row`), which
  is entry `512·t + p` of `Cert.Density.density x ρ`: each point writes back its block of that one function. The 32
  output blocks tile the 16384 entries (entry `i` lies in block `i / 512`), so the array ends holding the function.
-/
import proofs.«164207_j30897994728226_1_alg».proof.Proof.Gen.KernelIdeal.Value
import proofs.«164207_j30897994728226_1_alg».proof.Proof.KernelRow
import Idealize.ShloMosaic.Lib.StableHlo.Run

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx Cert.Density
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## One block row against one array row -/

/-- If row `y` of a block `x0` is row `i` of an array `X`, and the block `x1` is the matrix `R`, then entry `y` of
    the body's stored value is entry `i` of the density of `X` and `R`. -/
theorem block_row (x0 : FVec Ideal S512x2048 .f32) (x1 : FVec Ideal S2048x2048 .bf16)
    (X : S16384x2048.Idx → EReal) (R : S2048x2048.Idx → EReal) (y : S512.Idx) (i : S16384.Idx)
    (hx : ∀ j : Fin 2048, x0 (ix2 (y 0) j) = X (ix2 (i 0) j)) (hr : ∀ q : S2048x2048.Idx, x1 q = R q) :
    k0_pay1 (F := Ideal) x0 x1 y = density X R i := by
  obtain ⟨p, rfl⟩ : ∃ p : Fin 512, y = ix1 p := ⟨y 0, eq_ix1 y⟩
  obtain ⟨b, rfl⟩ : ∃ b : Fin 16384, i = ix1 b := ⟨i 0, eq_ix1 i⟩
  rw [Row.pay_row, density_ix1]
  have e1 : rowOf x0 p = rowOf X b := funext fun j => hx j
  have e2 : (x1 : S2048x2048.Idx → EReal) = R := funext hr
  rw [e1, e2]

/-! ## The windows' index maps, decided over the grid -/

/-- The input window's block index is `(t, 0)`, the matrix window's `(0, 0)`, the output window's `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = t.val :=
  (by decide +kernel : ∀ t : Fin grid0.N, _)

/-! ## The arrays as the region finds them -/

/-- The matrix window's array, written by the host prefix, is the argument `ρ` narrowed to 16 bits. -/
theorem V_main_v0 (c : Dev nD) : (V m c main_v0 : S2048x2048.Idx → Elt Ideal .bf16)
    = truncf (F := Ideal) .bf16 (m ((c : Thread nD τ).loc main_arg1)) Facts₀.bitsLt_bf16_f32 := by
  dsimp only [Gen.V, Gen.hostOps0]; after_results

/-- The input window's block at point `t` is rows `512·t …` of the argument `x`. -/
theorem xblk_apply (c : Dev nD) (t : Fin cfg0.N) (y : S512x2048.Idx) (k : S16384x2048.Idx)
    (hk0 : (k 0).val = 512 * t.val + (y 0).val) (hk1 : (k 1).val = (y 1).val) :
    (iblk m c 0 t : Vec Ideal S512x2048 .f32) y = (m ((c : Thread nD τ).loc main_arg0) : S16384x2048.Idx → EReal) k := by
  obtain ⟨e0, e1, -⟩ := idx_facts t
  unfold iblk
  rw [View.read_apply]
  show V m c main_arg0 _ = _
  rw [V_main_arg0]
  refine congrArg _ ?_
  funext a
  apply Fin.ext
  match a with
  | ⟨0, _⟩ => show win0_0.index t 0 * 512 + 1 * (y 0).val = (k 0).val; rw [e0, hk0]; omega
  | ⟨1, _⟩ => show win0_0.index t 1 * 2048 + 1 * (y 1).val = (k 1).val; rw [e1, hk1]; omega

/-- The matrix window's block at every point is the whole matrix, which is the argument `ρ`. -/
theorem rblk_apply (c : Dev nD) (t : Fin cfg0.N) (q : S2048x2048.Idx) :
    (iblk m c 1 t : Vec Ideal S2048x2048 .bf16) q = (m ((c : Thread nD τ).loc main_arg1) : S2048x2048.Idx → EReal) q := by
  obtain ⟨-, -, e0, e1, -⟩ := idx_facts t
  unfold iblk
  rw [View.read_apply]
  show (V m c main_v0 : S2048x2048.Idx → Elt Ideal .bf16) _ = _
  rw [V_main_v0, truncf_apply]
  refine congrArg _ ?_
  funext a
  apply Fin.ext
  match a with
  | ⟨0, _⟩ => show win0_1.index t 0 * 2048 + 1 * (q 0).val = (q 0).val; rw [e0]; omega
  | ⟨1, _⟩ => show win0_1.index t 1 * 2048 + 1 * (q 1).val = (q 1).val; rw [e1]; omega

/-! ## What each point writes back, the cover, and the array after the run -/

/-- The result both programs are compared at, on core `c`: the density of the two argument arrays. -/
abbrev result (c : Dev nD) : S16384.Idx → EReal :=
  density (m ((c : Thread nD τ).loc main_arg0)) (m ((c : Thread nD τ).loc main_arg1))

/-- Point `t` writes back block `t` of the density. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz1]
  simp only [View.ld_unit_zero (S := S512x2048) hz2, View.ld_unit_zero (S := S2048x2048) hz2]
  obtain ⟨-, -, -, -, e2⟩ := idx_facts t
  funext y
  show k0_pay1 (F := Ideal) (iblk m c 0 t) (iblk m c 1 t) y = result m c (((cfg0.win 2).blk t).view.emb y)
  refine block_row (iblk m c 0 t) (iblk m c 1 t) _ _ y _ (fun j => ?_) (fun q => rblk_apply m c t q)
  refine xblk_apply m c t (ix2 (y 0) j) _ ?_ rfl
  show win0_2.index t 0 * 512 + 1 * (y 0).val = 512 * t.val + (y 0).val
  rw [e2]; omega

/-- An entry of the result array is in point `t`'s block iff it lies in the block's range. -/
theorem mem_blk (t : Fin cfg0.N) (i : S16384.Idx) :
    i ∈ ((cfg0.win 2).blk t).view.set ↔ ∀ a : Fin 1, win0_2.index t a * S512.size a ≤ (i a).val ∧ (i a).val < win0_2.index t a * S512.size a + S512.size a := by
  show i ∈ ((View.whole main_v1).slice (win0_2.rect t)).set ↔ _
  rw [View.set_slice_whole, Rect.mem_set_unit]
  exact Iff.rfl

/-- Every entry is in some point's block: entry `i` in block `i / 512`. -/
theorem cover (i : S16384.Idx) : ∃ t : Fin cfg0.N, (cfg0.win 2).flush t = true ∧ i ∈ ((cfg0.win 2).blk t).view.set := by
  have hi : (i 0).val < 16384 := (i 0).isLt
  have hN : cfg0.N = 32 := N_0
  let t : Fin cfg0.N := ⟨(i 0).val / 512, by rw [hN]; omega⟩
  obtain ⟨-, -, -, -, e2⟩ := idx_facts t
  refine ⟨t, flush0_2 t, ?_⟩
  rw [mem_blk]
  intro a
  match a with
  | ⟨0, _⟩ =>
    show win0_2.index t 0 * 512 ≤ (i 0).val ∧ (i 0).val < win0_2.index t 0 * 512 + 512
    rw [e2]
    show (i 0).val / 512 * 512 ≤ (i 0).val ∧ (i 0).val < (i 0).val / 512 * 512 + 512
    omega

/-- The result array after the run is the density of the argument arrays. -/
theorem final (c : Dev nD) : (dats m 0 c).arrAt 2 cfg0.N = result m c :=
  (dats m 0 c).arrAt_eq_of_cover 2 (result m c) (fun t _ => flushed_eq m c t) cover

/-- The kernel's run, read: the result array at the density of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Value.run_blocks m ρ)

end Cert.KernelIdeal.Array

end
-- ==== Proof.RefDensity.lean ====
/-
  The reference computes the density.

  Read one operation at a time, the reference's result at batch row `b` is

      (0 + ∑ j, x[b,j] · x[b,j]) · (0 + ∑ j, (∑ k, x[b,k] · ρ[k,j]) · x[b,j]):

  the matrix product `x ρ` read at `(b, j)` as a sum over the contracted axis, its entrywise product with `x`, the
  sum of that over the columns started from the constant `0`, the same sum of `x · x`, and the product of the two
  sums. Dropping the two zero summands (`0 + a = a` on the extended reals) leaves `Cert.Density.density x ρ` at `b`.
-/
import proofs.«164207_j30897994728226_1_alg».proof.Proof.Gen.ReferenceIdeal.Read
import proofs.«164207_j30897994728226_1_alg».proof.Proof.Density
import Idealize.ShloMosaic.Lib.ValueIdx
import Idealize.ShloMosaic.PureOps.Ideal.Laws

noncomputable section

open scoped BigOperators

namespace Cert.ReferenceIdeal.RefDensity

open Cert.ReferenceIdeal Cert.ReferenceIdeal.Gen Cert.ReferenceIdeal.Read Idealize.ShloMosaic Idealize.ShloMosaic.ValueIdx Cert.Density

/-- The column sum's source index at row `b`, column `j`. -/
theorem idx_v4 (b : Fin 16384) (j : Fin 2048) : idx_main_v4 (ix1 b) j = ix2 b j :=
  funext fun a => Fin.ext (by match a with | ⟨0, _⟩ => rfl | ⟨1, _⟩ => rfl)
theorem idx_v2 (b : Fin 16384) (j : Fin 2048) : idx_main_v2 (ix1 b) j = ix2 b j :=
  funext fun a => Fin.ext (by match a with | ⟨0, _⟩ => rfl | ⟨1, _⟩ => rfl)
/-- The matrix product at `(b, j)` reads the left operand at `(b, k)` and the right at `(k, j)`. -/
theorem lidx_v0 (b : Fin 16384) (j k : Fin 2048) : lidx_main_v0 (ix2 b j) k = ix2 b k :=
  funext fun a => Fin.ext (by match a with | ⟨0, _⟩ => rfl | ⟨1, _⟩ => rfl)
theorem ridx_v0 (b : Fin 16384) (j k : Fin 2048) : ridx_main_v0 (ix2 b j) k = ix2 k j :=
  funext fun a => Fin.ext (by match a with | ⟨0, _⟩ => rfl | ⟨1, _⟩ => rfl)

/-- The reference's last stage, as a function of the two arguments, is the density. -/
theorem ref_eq (x : (⟨S16384x2048, .f32⟩ : BufTy).Contents (Elt Ideal)) (rho : (⟨S2048x2048, .f32⟩ : BufTy).Contents (Elt Ideal)) :
    val_main_v5 (F := Ideal) x rho = density x rho := by
  funext i
  obtain ⟨b, rfl⟩ : ∃ b : Fin 16384, i = ix1 b := ⟨i 0, eq_ix1 i⟩
  rw [density_ix1, val_main_v5_apply, val_main_v4_apply, val_main_v2_apply]
  have hz : ∀ u, val_main_cst (F := Ideal) u = 0 := fun _ => Ideal.ofBits_zero_f32
  have hz0 : ∀ u, val_main_cst_0 (F := Ideal) u = 0 := fun _ => Ideal.ofBits_zero_f32
  rw [hz, hz0, zero_add, zero_add]
  unfold rowDensity normSq quadForm
  show (∑ k : Fin 2048, val_main_v3 (F := Ideal) x (idx_main_v4 (ix1 b) k)) * (∑ k : Fin 2048, val_main_v1 (F := Ideal) x rho (idx_main_v2 (ix1 b) k)) = _
  refine congrArg₂ (· * ·) (Finset.sum_congr rfl fun j _ => ?_) (Finset.sum_congr rfl fun j _ => ?_)
  · rw [idx_v4]; rfl
  · rw [idx_v2, val_main_v1_apply, val_main_v0_apply]
    show (∑ k : Fin 2048, x (lidx_main_v0 (ix2 b j) k) * rho (ridx_main_v0 (ix2 b j) k)) * x (ix2 b j) = rowTimes (rowOf x b) rho j * rowOf x b j
    refine congrArg (· * x (ix2 b j)) (Finset.sum_congr rfl fun k _ => ?_)
    rw [lidx_v0, ridx_v0]; rfl

end Cert.ReferenceIdeal.RefDensity

end
-- ==== Proof.lean ====
/-
  The kernel and its reference compute the same density, `out[b] = ‖x_b‖² · (x_bᵀ ρ x_b)`, on the extended reals.

  Both programs, read at exact arithmetic, form for every batch row `b`

      (∑ j, x[b,j] · x[b,j]) · (∑ j, (∑ k, x[b,k] · ρ[k,j]) · x[b,j])

  with the sums and products grouped in exactly this way (`Cert.Density.density`). The reference does it on whole arrays:
  one matrix product, two entrywise products, two column sums started from `0`, one product
  (`Cert.ReferenceIdeal.RefDensity.ref_eq`). The kernel does it 512 rows at a time over a grid of 32 points, with the
  matrix narrowed to 16 bits beforehand and the rows narrowed inside the body — both the identity at exact arithmetic
  — and the matrix product taken into a zero accumulator (`Cert.KernelIdeal.Row.pay_row` for one row of one block,
  `Cert.KernelIdeal.Array.run` for the whole array: the 32 blocks of 512 entries tile the 16384). Since the two sides
  are the same expression, no law of the extended reals beyond `0 + a = a` is used, and the finiteness of the inputs is
  never needed.

  The three programs run to the end without a fault and leave their arguments as they were: for the two kernels by the
  frame of the pipelined call, for the reference by its run as a list of array operations. The idealized kernel is the
  kernel's own text read at exact arithmetic (no operation was rewritten), so there is nothing to preserve.
-/
import proofs.«164207_j30897994728226_1_alg».proof.Defs
import proofs.«164207_j30897994728226_1_alg».proof.Proof.Gen.Kernel
import proofs.«164207_j30897994728226_1_alg».proof.Proof.Gen.Kernel.Skeleton
import proofs.«164207_j30897994728226_1_alg».proof.Proof.Gen.Kernel.Launch
import proofs.«164207_j30897994728226_1_alg».proof.Proof.Gen.Kernel.Points
import proofs.«164207_j30897994728226_1_alg».proof.Proof.Gen.Kernel.Frame
import proofs.«164207_j30897994728226_1_alg».proof.Proof.Gen.KernelIdeal
import proofs.«164207_j30897994728226_1_alg».proof.Proof.Gen.KernelIdeal.Skeleton
import proofs.«164207_j30897994728226_1_alg».proof.Proof.Gen.KernelIdeal.Launch
import proofs.«164207_j30897994728226_1_alg».proof.Proof.Gen.KernelIdeal.Points
import proofs.«164207_j30897994728226_1_alg».proof.Proof.Gen.KernelIdeal.Frame
import proofs.«164207_j30897994728226_1_alg».proof.Proof.Gen.ReferenceIdeal
import proofs.«164207_j30897994728226_1_alg».proof.Proof.Gen.Pre_finite_inputs
import proofs.«164207_j30897994728226_1_alg».proof.Proof.Gen.KernelIdeal.Value
import proofs.«164207_j30897994728226_1_alg».proof.Proof.Gen.ReferenceIdeal.Run
import proofs.«164207_j30897994728226_1_alg».proof.Proof.Gen.ReferenceIdeal.Read
import proofs.«164207_j30897994728226_1_alg».proof.Proof.Density
import proofs.«164207_j30897994728226_1_alg».proof.Proof.KernelRow
import proofs.«164207_j30897994728226_1_alg».proof.Proof.KernelArray
import proofs.«164207_j30897994728226_1_alg».proof.Proof.RefDensity
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to exact arithmetic. -/
theorem preserves : Cert.preserves_Kernel_KernelIdeal := trivial

/-- From memories that agree on `x` and `ρ`, both programs end with the density of `x` and `ρ` in their result
    arrays: the kernel block by block, the reference operation by operation. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.RefDensity.ref_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
